-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S_ : Shape := ⟨0, ![]⟩
abbrev S1024x1024 : Shape := ⟨2, ![1024, 1024]⟩
abbrev S1024x1 : Shape := ⟨2, ![1024, 1]⟩
abbrev S1024 : Shape := ⟨1, ![1024]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  reducesTo_S_S_d : S_.ReducesTo [] S_
  bcast_S_S1024x1024 : S_.BroadcastsInDim S1024x1024 (![] : Fin 0 → Fin S1024x1024.rank)
  reducesTo_S1024x1024_S_d0_1 : S1024x1024.ReducesTo [0, 1] S_
  bcast_S_S1024x1 : S_.BroadcastsInDim S1024x1 (![] : Fin 0 → Fin S1024x1.rank)
  reducesTo_S1024x1_S_d0_1 : S1024x1.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v12 : IVec S_ 1) (main_v15 : IVec S1024x1 1) (main_c_5 : IVec S_ 1) : IVec S_ 1 :=
  let main_v16 : IVec S_ 1 := (fun x v => Host.reduce IntOp.andi x v reducesTo_S1024x1_S_d0_1 h_S_) main_v15 main_c_5
  let main_v17 : IVec S_ 1 := andi main_v12 main_v16
  let main_v18 : FVec F S1024 .f32 := Host.absf main_arg4
  let main_cst_6 : FVec F S_ .f32 := constant S_ .f32 0x7F800000#32
  let main_v19 : FVec F S1024 .f32 := broadcastInDim S1024 ![] bcast_S_S1024 main_cst_6
  let main_v20 : IVec S1024 1 := cmpf .olt main_v18 main_v19
  let main_c_7 : IVec S_ 1 := constantI S_ 1 1#1
  let main_v21 : IVec S_ 1 := (fun x v => Host.reduce IntOp.andi x v reducesTo_S1024_S_d0 h_S_) main_v20 main_c_7
  let main_v22 : IVec S_ 1 := andi main_v17 main_v21
  main_v22

def fn {F : FTy → Type} [FloatOps F] (main_arg0 : FVec F S16x4096x1024 .f32) (main_arg1 : FVec F S_ .f32) (main_arg2 : FVec F S1024x1024 .f32) (main_arg3 : FVec F S1024x1 .f32) (main_arg4 : FVec F S1024 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S_ .f32 := Host.absf main_arg1
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S1024x1024 .f32 := Host.absf main_arg2
  let main_cst_2 : FVec F S_ .f32 := constant S_ .f32 0x7F800000#32
  let main_v9 : FVec F S1024x1024 .f32 := broadcastInDim S1024x1024 ![] bcast_S_S1024x1024 main_cst_2
  let main_v10 : IVec S1024x1024 1 := cmpf .olt main_v8 main_v9
  let main_c_3 : IVec S_ 1 := constantI S_ 1 1#1
  let main_v11 : IVec S_ 1 := (fun x v => Host.reduce IntOp.andi x v reducesTo_S1024x1024_S_d0_1 h_S_) main_v10 main_c_3
  let main_v12 : IVec S_ 1 := andi main_v7 main_v11
  let main_v13 : FVec F S1024x1 .f32 := Host.absf main_arg3
  let main_cst_4 : FVec F S_ .f32 := constant S_ .f32 0x7F800000#32
  let main_v14 : FVec F S1024x1 .f32 := broadcastInDim S1024x1 ![] bcast_S_S1024x1 main_cst_4
  let main_v15 : IVec S1024x1 1 := cmpf .olt main_v13 main_v14
  let main_c_5 : IVec S_ 1 := constantI S_ 1 1#1
  fn_part1 (F := F) main_arg4 main_v12 main_v15 main_c_5
-- ==== Kernel.lean ====
abbrev S16x4096x1024 : Shape := ⟨3, ![16, 4096, 1024]⟩
abbrev S_ : Shape := ⟨0, ![]⟩
abbrev S1024x1024 : Shape := ⟨2, ![1024, 1024]⟩
abbrev S1024x1 : Shape := ⟨2, ![1024, 1]⟩
abbrev S1024 : Shape := ⟨1, ![1024]⟩
abbrev S65536x1024 : Shape := ⟨2, ![65536, 1024]⟩
abbrev S1x1024 : Shape := ⟨2, ![1, 1024]⟩
abbrev S1x1 : Shape := ⟨2, ![1, 1]⟩

abbrev nBuf : Space → Nat
  | .hbm => 19
  | .vmem => 8
  | .smem => 0
  | _ => 0

abbrev bufTy : (tb : Table) → Fin (tcTables nBuf tb) → BufTy
  | .hbm, ⟨0, _⟩ => ⟨S16x4096x1024, .f32⟩
  | .hbm, ⟨1, _⟩ => ⟨S_, .f32⟩
  | .hbm, ⟨2, _⟩ => ⟨S1024x1024, .f32⟩
  | .hbm, ⟨3, _⟩ => ⟨S1024x1, .f32⟩
  | .hbm, ⟨4, _⟩ => ⟨S1024, .f32⟩
  | .hbm, ⟨5, _⟩ => ⟨S65536x1024, .f32⟩
  | .hbm, ⟨6, _⟩ => ⟨S1024x1, .f32⟩
  | .hbm, ⟨7, _⟩ => ⟨S1024x1, .f32⟩
  | .hbm, ⟨8, _⟩ => ⟨S1x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1024x1024, .bf16⟩
  | .hbm, ⟨14, _⟩ => ⟨S1024x1024, .bf16⟩
  | .hbm, ⟨15, _⟩ => ⟨S1x1, .f32⟩
  | .hbm, ⟨16, _⟩ => ⟨S65536x1024, .f32⟩
  | .hbm, ⟨17, _⟩ => ⟨S16x4096x1024, .f32⟩
  | .hbm, ⟨18, _⟩ => ⟨S1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1, .f32⟩
  | .local _ .vmem, ⟨6, _⟩ => ⟨S1024x1024, .f32⟩
  | .local _ .vmem, ⟨7, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x4096x1024_S65536x1024 : S16x4096x1024.ShapeCasts S65536x1024
  bcast_S_S1024x1 : S_.BroadcastsInDim S1024x1 (![] : Fin 0 → Fin S1024x1.rank)
  shapeCasts_S1024x1_S1x1024 : S1024x1.ShapeCasts S1x1024
  bcast_S_S1024 : S_.BroadcastsInDim S1024 (![] : Fin 0 → Fin S1024.rank)
  shapeCasts_S1024_S1x1024 : S1024.ShapeCasts S1x1024
  bitsLt_bf16_f32 : FTy.bits .bf16 < FTy.bits .f32
  transposes_S1024x1024_S1024x1024_1_0 : S1024x1024.Transposes [1, 0] S1024x1024
  shapeCasts_S_S1x1 : S_.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  broadcasts_S1x1_S1024x1024 : S1x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S65536x1024_S16x4096x1024 : S65536x1024.ShapeCasts S16x4096x1024
  shapeCasts_S1x1024_S1024 : S1x1024.ShapeCasts S1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S65536x1024.size a
  hwx0_0 : ∀ i : grid0.Coords, EltTy.bits .f32 = 32 ∨ (Rect.block (s := S65536x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S65536x1024.size a
  hwx0_5 : ∀ i : grid0.Coords, EltTy.bits .f32 = 32 ∨ (Rect.block (s := S65536x1024) S1024x1024.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x1024 : Shape := ⟨3, ![16, 4096, 1024]⟩
abbrev S_ : Shape := ⟨0, ![]⟩
abbrev S1024x1024 : Shape := ⟨2, ![1024, 1024]⟩
abbrev S1024x1 : Shape := ⟨2, ![1024, 1]⟩
abbrev S1024 : Shape := ⟨1, ![1024]⟩
abbrev S1x1x1024 : Shape := ⟨3, ![1, 1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S_, .f32⟩
  | .hbm, ⟨2, _⟩ => ⟨S1024x1024, .f32⟩
  | .hbm, ⟨3, _⟩ => ⟨S1024x1, .f32⟩
  | .hbm, ⟨4, _⟩ => ⟨S1024, .f32⟩
  | .hbm, ⟨5, _⟩ => ⟨S16x4096x1024, .f32⟩
  | .hbm, ⟨6, _⟩ => ⟨S16x4096x1024, .f32⟩
  | .hbm, ⟨7, _⟩ => ⟨S16x4096x1024, .f32⟩
  | .hbm, ⟨8, _⟩ => ⟨S1024x1, .f32⟩
  | .hbm, ⟨9, _⟩ => ⟨S1024x1, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S16x4096x1024, .f32⟩
  | .hbm, ⟨15, _⟩ => ⟨S1x1x1024, .f32⟩
  | .hbm, ⟨16, _⟩ => ⟨S16x4096x1024, .f32⟩
  | .hbm, ⟨17, _⟩ => ⟨S16x4096x1024, .f32⟩
  | .hbm, ⟨18, _⟩ => ⟨S1x1x1024, .f32⟩
  | .hbm, ⟨19, _⟩ => ⟨S16x4096x1024, .f32⟩
  | .hbm, ⟨20, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  bcast_S_S16x4096x1024 : S_.BroadcastsInDim S16x4096x1024 (![] : Fin 0 → Fin S16x4096x1024.rank)
  bcast_S_S1024x1 : S_.BroadcastsInDim S1024x1 (![] : Fin 0 → Fin S1024x1.rank)
  shapeCasts_S1024x1_S1024 : S1024x1.ShapeCasts S1024
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S16x4096x1024_0_1_2 : S1x1x1024.BroadcastsInDim S16x4096x1024 (![0, 1, 2] : Fin 3 → Fin S16x4096x1024.rank)
  dot_S16x4096x1024_S1024x1024_S16x4096x1024_2_1_01_0_n_n_wf : DotDims.WF S16x4096x1024 S1024x1024 S16x4096x1024 [2] [1] [0, 1] [0] [] []

variable [Facts₀]

def dot_S16x4096x1024_S1024x1024_S16x4096x1024_2_1_01_0_n_n : DotDims S16x4096x1024 S1024x1024 S16x4096x1024 where
  lhsContracting := [2]
  rhsContracting := [1]
  lhsNonContracting := [0, 1]
  rhsNonContracting := [0]
  lhsBatch := []
  rhsBatch := []
  wf := dot_S16x4096x1024_S1024x1024_S16x4096x1024_2_1_01_0_n_n_wf

class Facts : Prop extends Facts₀ where

variable [Facts]
-- ==== Proof.Payload.lean ====
/-
  The kernel body's one stored value, read at an index.

  At the ideal values the body's payload at row `p`, column `q` of a block is
    (Σ_k roundeven(x[p,k] / sx) · wt[k,q] + bq[q]) · sa[q]:
  the format change to bf16 is the identity, the matrix product into a zero accumulator is the plain sum over the
  contracted axis, and the two row vectors and the scalar are broadcast over the block.
-/
import proofs.«132636_j19765439496401_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.QuantLinear

open Cert.KernelIdeal Cert.KernelIdeal.Gen Idealize.ShloMosaic Idealize.ShloMosaic.ValueIdx

/-! ## The matrix product's operand indices, axis by axis -/

theorem lhs_axis0 (j : S1024x1024.Idx) (r : dot_S1024x1024_S1024x1024_S1024x1024_1_0_0_1_n_n.contr.Idx) :
    (dot_S1024x1024_S1024x1024_S1024x1024_1_0_0_1_n_n.lhsIdx j r 0).val = (j 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_axis1 (j : S1024x1024.Idx) (r : dot_S1024x1024_S1024x1024_S1024x1024_1_0_0_1_n_n.contr.Idx) :
    (dot_S1024x1024_S1024x1024_S1024x1024_1_0_0_1_n_n.lhsIdx j r 1).val = (r ⟨0, by decide⟩).val :=
  dot_S1024x1024_S1024x1024_S1024x1024_1_0_0_1_n_n.lhsIdx_val_of_single rfl j r
theorem rhs_axis0 (j : S1024x1024.Idx) (r : dot_S1024x1024_S1024x1024_S1024x1024_1_0_0_1_n_n.contr.Idx) :
    (dot_S1024x1024_S1024x1024_S1024x1024_1_0_0_1_n_n.rhsIdx j r 0).val = (r ⟨0, by decide⟩).val :=
  dot_S1024x1024_S1024x1024_S1024x1024_1_0_0_1_n_n.rhsIdx_val_of_single rfl j r
theorem rhs_axis1 (j : S1024x1024.Idx) (r : dot_S1024x1024_S1024x1024_S1024x1024_1_0_0_1_n_n.contr.Idx) :
    (dot_S1024x1024_S1024x1024_S1024x1024_1_0_0_1_n_n.rhsIdx j r 1).val = (j 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The body's matrix product into the zero accumulator, at row `p` and column `q`: the sum over the contracted
    axis of the left operand's row `p` times the right operand's column `q`. -/
theorem matmul_at (A B : FVec Ideal S1024x1024 .bf16) (p q : Fin 1024) :
    matmul dot_S1024x1024_S1024x1024_S1024x1024_1_0_0_1_n_n none A B (constant (F := Ideal) S1024x1024 .f32 0x00000000#32) (ix2 p q)
      = ∑ k : Fin 1024, A (ix2 p k) * B (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The one-element array broadcast over a block reads its element everywhere. -/
theorem broadcast_scalar_at (v : (S1x1).Idx → EReal) (p q : Fin 1024) :
    broadcastTo S1024x1024 v broadcasts_S1x1_S1024x1024 (ix2 p q) = v (ix2 (0 : Fin 1) (0 : Fin 1)) :=
  broadcastTo_apply v broadcasts_S1x1_S1024x1024 (ix2 p q) (ix2 (0 : Fin 1) (0 : Fin 1)) fun a => by
    match a with
    | ⟨0, _⟩ => rfl
    | ⟨1, _⟩ => rfl

/-- THE PAYLOAD AT AN INDEX. -/
theorem pay_at (sx : Vec Ideal S1x1 .f32) (x : Vec Ideal S1024x1024 .f32) (wt : Vec Ideal S1024x1024 .bf16)
    (bq sa : Vec Ideal S1x1024 .f32) (p q : Fin 1024) :
    k0_pay1 (F := Ideal) sx x wt bq sa (ix2 p q)
      = ((∑ k : Fin 1024, FloatOps.roundeven (F := Ideal) (φ := .f32) (FloatOps.divf (x (ix2 p k)) (sx (ix2 (0 : Fin 1) (0 : Fin 1)))) * wt (ix2 k q))
          + bq (ix2 (0 : Fin 1) q)) * sa (ix2 (0 : Fin 1) q) := by
  unfold k0_pay1
  simp only [shapeCast_self]
  rw [mulf_apply, addf_apply, matmul_at, broadcastTo_1b_ab_apply, broadcastTo_1b_ab_apply]
  refine congrArg (fun s => (s + bq (ix2 (0 : Fin 1) q)) * sa (ix2 (0 : Fin 1) q)) (Finset.sum_congr rfl fun k _ => ?_)
  refine congrArg (· * wt (ix2 k q)) ?_
  show FloatOps.roundeven (F := Ideal) (φ := .f32) (FloatOps.divf (x (ix2 p k)) (broadcastTo S1024x1024 sx broadcasts_S1x1_S1024x1024 (ix2 p k))) = _
  rw [broadcast_scalar_at]

end Cert.KernelIdeal.QuantLinear

end
-- ==== Proof.Blocks.lean ====
/-
  The kernel region's output array after the run, as ONE function of the arrays the region finds.

  The region runs over 64 grid points; point `t` reads rows `1024·t … 1024·t + 1023` of the flattened activations
  and the whole of the transposed weights, the two row vectors and the scalar, and writes back the same rows of the
  output. So what each point writes back is a block of the whole-array function
    out[r, o] = (Σ_k roundeven(X[r,k] / SX) · WT[k,o] + BQ[o]) · SA[o],
  and since the 64 row blocks tile the array, the array ends holding that function.
-/
import proofs.«132636_j19765439496401_1_alg».proof.Proof.Gen.KernelIdeal.Frame
import proofs.«132636_j19765439496401_1_alg».proof.Proof.Payload

set_option maxRecDepth 16384

noncomputable section

namespace Cert.KernelIdeal.QuantLinear

open Cert.KernelIdeal Cert.KernelIdeal.Gen Idealize.ShloMosaic Idealize.ShloMosaic.TcCoe Idealize.SL.Sem
open Idealize.ShloMosaic.ValueIdx
open Idealize.ShloMosaic.Pipeline (Dat)

/-- The quantized linear layer over the flattened activations: row `r`, output channel `o`. -/
def rowsOut (X : S65536x1024.Idx → EReal) (WT : S1024x1024.Idx → EReal) (SA BQ : S1x1024.Idx → EReal) (SX : S1x1.Idx → EReal) :
    S65536x1024.Idx → EReal := fun i =>
  ((∑ k : Fin 1024, FloatOps.roundeven (F := Ideal) (φ := .f32) (FloatOps.divf (X (ix2 (i 0) k)) (SX (ix2 (0 : Fin 1) (0 : Fin 1)))) * WT (ix2 k (i 1)))
      + BQ (ix2 (0 : Fin 1) (i 1))) * SA (ix2 (0 : Fin 1) (i 1))

/-- A block's payload at `(p, q)` is `rowsOut` at the array index `i`, once each loaded block is known to be the
    array read along row `i 0` and column `i 1`. -/
theorem pay_eq_rowsOut (sx : Vec Ideal S1x1 .f32) (x : Vec Ideal S1024x1024 .f32) (wt : Vec Ideal S1024x1024 .bf16)
    (bq sa : Vec Ideal S1x1024 .f32)
    (X : S65536x1024.Idx → EReal) (WT : S1024x1024.Idx → EReal) (SA BQ : S1x1024.Idx → EReal) (SX : S1x1.Idx → EReal)
    (i : S65536x1024.Idx) (p q : Fin 1024)
    (hx : ∀ k : Fin 1024, x (ix2 p k) = X (ix2 (i 0) k))
    (hwt : ∀ k : Fin 1024, wt (ix2 k q) = WT (ix2 k (i 1)))
    (hbq : bq (ix2 (0 : Fin 1) q) = BQ (ix2 (0 : Fin 1) (i 1)))
    (hsa : sa (ix2 (0 : Fin 1) q) = SA (ix2 (0 : Fin 1) (i 1)))
    (hsx : sx (ix2 (0 : Fin 1) (0 : Fin 1)) = SX (ix2 (0 : Fin 1) (0 : Fin 1))) :
    k0_pay1 (F := Ideal) sx x wt bq sa (ix2 p q) = rowsOut X WT SA BQ SX i := by
  rw [pay_at]
  unfold rowsOut
  rw [hbq, hsa, hsx]
  refine congrArg (fun s => (s + BQ (ix2 (0 : Fin 1) (i 1))) * SA (ix2 (0 : Fin 1) (i 1))) (Finset.sum_congr rfl fun k _ => ?_)
  rw [hx k, hwt k]

variable (m : (ℓ : Loc nD τ sig) → Buf (Elt Ideal) ℓ) (ρ : Dev nD → PrngReg)

theorem hz : (![0, 0] : Fin 2 → Nat) = fun _ => 0 := funext fun a => by fin_cases a <;> rfl

/-- The printed index maps over the 64 points: the activations' block moves with the output's along the rows, every
    other window stays at block zero. -/
theorem idx_facts : ∀ t : Fin cfg0.N,
    win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 63 :=
  (by decide +kernel : ∀ t : Fin grid0.N, _)

/-- Every row block is some point's. -/
theorem idx_onto : ∀ (q0 : Fin 64), ∃ t : Fin cfg0.N, win0_5.index t = ![q0.val, 0] :=
  (by decide +kernel : ∀ (q0 : Fin 64), ∃ t : Fin grid0.N, win0_5.index t = ![q0.val, 0])

/-- WHAT POINT `t` WRITES BACK is block `t` of `rowsOut` of the arrays as the region finds them. -/
theorem flushed_eq (c : Dev nD) (t : Fin cfg0.N) :
    (dats m 0 c).flushed 5 t = ((cfg0.win 5).blk t).view.read (Elt Ideal)
      (rowsOut (V m c main_v0) (V m c main_v9) (V m c main_v3) (V m c main_v7) (V m c main_v10)) := by
  show (cfg0.win 5).cut (grid0.coords t) ((dats m 0 c).after 5 t) = _
  rw [after0_5]
  unfold out0_5
  rw [View.canon_unit_zero hz]
  simp only [View.ld_unit_zero (S := S1024x1024) hz, View.ld_unit_zero (S := S1x1024) hz, View.ld_unit_zero (S := S1x1) hz]
  obtain ⟨e0, e1, e2, e3, e4, e5, e6, e7, e8, e9, e10, e11⟩ := idx_facts t
  funext j
  obtain ⟨p, q, rfl⟩ : ∃ (p : Fin 1024) (q : Fin 1024), j = ix2 p q := ⟨j 0, j 1, eq_ix2 j⟩
  show k0_pay1 (F := Ideal) (iblk m c 4 t) (iblk m c 0 t) (iblk m c 1 t) (iblk m c 3 t) (iblk m c 2 t) (ix2 p q)
    = rowsOut (V m c main_v0) (V m c main_v9) (V m c main_v3) (V m c main_v7) (V m c main_v10) (((cfg0.win 5).blk t).view.emb (ix2 p q))
  have hi0 : ((((cfg0.win 5).blk t).view.emb (ix2 p q)) 0).val = win0_5.index t (0 : Fin 2) * 1024 + 1 * p.val := rfl
  have hi1 : ((((cfg0.win 5).blk t).view.emb (ix2 p q)) 1).val = win0_5.index t (1 : Fin 2) * 1024 + 1 * q.val := rfl
  refine pay_eq_rowsOut (iblk m c 4 t) (iblk m c 0 t) (iblk m c 1 t) (iblk m c 3 t) (iblk m c 2 t)
    (V m c main_v0) (V m c main_v9) (V m c main_v3) (V m c main_v7) (V m c main_v10)
    (((cfg0.win 5).blk t).view.emb (ix2 p q)) p q ?_ ?_ ?_ ?_ ?_
  · intro k
    show V m c main_v0 (((cfg0.win 0).blk t).view.emb (ix2 p k)) = V m c main_v0 _
    refine congrArg (V m c main_v0) (funext fun a => Fin.ext ?_)
    match a with
    | ⟨0, _⟩ => show win0_0.index t (0 : Fin 2) * 1024 + 1 * p.val = _; rw [hi0, e0]
    | ⟨1, _⟩ => show win0_0.index t (1 : Fin 2) * 1024 + 1 * k.val = k.val; omega
  · intro k
    show V m c main_v9 (((cfg0.win 1).blk t).view.emb (ix2 k q)) = V m c main_v9 _
    refine congrArg (V m c main_v9) (funext fun a => Fin.ext ?_)
    match a with
    | ⟨0, _⟩ => show win0_1.index t (0 : Fin 2) * 1024 + 1 * k.val = k.val; omega
    | ⟨1, _⟩ => show win0_1.index t (1 : Fin 2) * 1024 + 1 * q.val = _; rw [hi1]; omega
  · show V m c main_v7 (((cfg0.win 3).blk t).view.emb (ix2 (0 : Fin 1) q)) = V m c main_v7 _
    refine congrArg (V m c main_v7) (funext fun a => Fin.ext ?_)
    match a with
    | ⟨0, _⟩ => show win0_3.index t (0 : Fin 2) * 1 + 1 * 0 = 0; omega
    | ⟨1, _⟩ => show win0_3.index t (1 : Fin 2) * 1024 + 1 * q.val = _; rw [hi1]; omega
  · show V m c main_v3 (((cfg0.win 2).blk t).view.emb (ix2 (0 : Fin 1) q)) = V m c main_v3 _
    refine congrArg (V m c main_v3) (funext fun a => Fin.ext ?_)
    match a with
    | ⟨0, _⟩ => show win0_2.index t (0 : Fin 2) * 1 + 1 * 0 = 0; omega
    | ⟨1, _⟩ => show win0_2.index t (1 : Fin 2) * 1024 + 1 * q.val = _; rw [hi1]; omega
  · show V m c main_v10 (((cfg0.win 4).blk t).view.emb (ix2 (0 : Fin 1) (0 : Fin 1))) = V m c main_v10 _
    refine congrArg (V m c main_v10) (funext fun a => Fin.ext ?_)
    match a with
    | ⟨0, _⟩ => show win0_4.index t (0 : Fin 2) * 1 + 1 * 0 = 0; omega
    | ⟨1, _⟩ => show win0_4.index t (1 : Fin 2) * 1 + 1 * 0 = 0; omega

/-- An index of the output array is in point `t`'s block iff each coordinate is in the block's range on its axis. -/
theorem mem_blk (t : Fin cfg0.N) (i : S65536x1024.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v11).slice (win0_5.rect t)).set ↔ _
  rw [View.set_slice_whole, Rect.mem_set_unit]
  exact Iff.rfl

/-- The 64 row blocks tile the output array: row `r` is in the block of the point whose block index is `r / 1024`. -/
theorem covered (i : S65536x1024.Idx) :
    ∃ t : Fin cfg0.N, (cfg0.win 5).flush t = true ∧ i ∈ ((cfg0.win 5).blk t).view.set := by
  have hi0 : (i 0).val < 65536 := (i 0).isLt
  have hi1 : (i 1).val < 1024 := (i 1).isLt
  obtain ⟨t, ht⟩ := idx_onto ⟨(i 0).val / 1024, by omega⟩
  have q0 : win0_5.index t (0 : Fin 2) = (i 0).val / 1024 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 1024 ≤ (i 1).val ∧ (i 1).val < win0_5.index t (1 : Fin 2) * 1024 + 1024; omega

/-- THE OUTPUT ARRAY after the run. -/
theorem final (c : Dev nD) : (dats m 0 c).arrAt 5 cfg0.N
    = rowsOut (V m c main_v0) (V m c main_v9) (V m c main_v3) (V m c main_v7) (V m c main_v10) :=
  (dats m 0 c).arrAt_eq_of_cover 5 _ (fun t _ => flushed_eq m c t) covered

end Cert.KernelIdeal.QuantLinear

end
-- ==== Proof.KernelRun.lean ====
/-
  The idealized kernel program's run, with both results named.

  Before the region the host flattens the activations to 65536 rows, forms the per-channel scale s_w · s_x and the
  requantized bias roundeven(b / s_x) as row vectors, transposes the weights and makes s_x a 1×1 array. After it the
  host reshapes the region's output to [16, 4096, 1024] and the scale row to [1024]. The region's array is the
  whole-array function of Blocks; the scale row is an input window's array, which the region leaves as it found it.
-/
import proofs.«132636_j19765439496401_1_alg».proof.Proof.Blocks
import Idealize.ShloMosaic.Lib.StableHlo.Run

set_option maxRecDepth 16384

noncomputable section

namespace Cert.KernelIdeal.QuantLinear

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The five arguments at their literal shapes -/

/-- The activations, the activation scale, the quantized weights, the per-channel weight scale and the quantized bias,
    as launched on core `c`. -/
abbrev xhat (c : Dev nD) : FVec Ideal S16x4096x1024 .f32 := m ((c : Thread nD τ).loc main_arg0)
abbrev sx (c : Dev nD) : FVec Ideal S_ .f32 := m ((c : Thread nD τ).loc main_arg1)
abbrev wq (c : Dev nD) : FVec Ideal S1024x1024 .f32 := m ((c : Thread nD τ).loc main_arg2)
abbrev sw (c : Dev nD) : FVec Ideal S1024x1 .f32 := m ((c : Thread nD τ).loc main_arg3)
abbrev bq (c : Dev nD) : FVec Ideal S1024 .f32 := m ((c : Thread nD τ).loc main_arg4)

/-! ## The arrays as the region finds them -/

theorem entry_x (c : Dev nD) : (V m c main_v0 : S65536x1024.Idx → EReal)
    = shapeCast S65536x1024 (xhat m c) shapeCasts_S16x4096x1024_S65536x1024 := by
  dsimp only [V, V0]
  simp only [hostOps0, hostOps0_1, hostOps0_2, List.flatten_cons, List.flatten_nil, List.append_nil, List.cons_append, List.nil_append]
  after_results <;> rfl

theorem entry_wt (c : Dev nD) : (V m c main_v9 : S1024x1024.Idx → EReal)
    = transpose S1024x1024 [1, 0] (truncf (F := Ideal) .bf16 (wq m c) bitsLt_bf16_f32) transposes_S1024x1024_S1024x1024_1_0 := by
  dsimp only [V, V0]
  simp only [hostOps0, hostOps0_1, hostOps0_2, List.flatten_cons, List.flatten_nil, List.append_nil, List.cons_append, List.nil_append]
  after_results <;> rfl

theorem entry_sa (c : Dev nD) : (V m c main_v3 : S1x1024.Idx → EReal)
    = shapeCast S1x1024 (mulf (F := Ideal) (sw m c) (broadcastInDim S1024x1 ![] bcast_S_S1024x1 (sx m c))) shapeCasts_S1024x1_S1x1024 := by
  dsimp only [V, V0]
  simp only [hostOps0, hostOps0_1, hostOps0_2, List.flatten_cons, List.flatten_nil, List.append_nil, List.cons_append, List.nil_append]
  after_results <;> rfl

theorem entry_bq (c : Dev nD) : (V m c main_v7 : S1x1024.Idx → EReal)
    = shapeCast S1x1024 (Host.roundeven (F := Ideal) (Host.divf (F := Ideal) (bq m c) (broadcastInDim S1024 ![] bcast_S_S1024 (sx m c)))) shapeCasts_S1024_S1x1024 := by
  dsimp only [V, V0]
  simp only [hostOps0, hostOps0_1, hostOps0_2, List.flatten_cons, List.flatten_nil, List.append_nil, List.cons_append, List.nil_append]
  after_results <;> rfl

theorem entry_sx (c : Dev nD) : (V m c main_v10 : S1x1.Idx → EReal)
    = shapeCast S1x1 (sx m c) shapeCasts_S_S1x1 := by
  dsimp only [V, V0]
  simp only [hostOps0, hostOps0_1, hostOps0_2, List.flatten_cons, List.flatten_nil, List.append_nil, List.cons_append, List.nil_append]
  after_results <;> rfl

/-! ## The host lines after the region -/

theorem tail_out (c : Dev nD) : Pipeline.afterTail₀ cfgs (dats m) 0 (V0 m) [hostOps1] c main_v12
    = shapeCast S16x4096x1024 (rowsOut (V m c main_v0) (V m c main_v9) (V m c main_v3) (V m c main_v7) (V m c main_v10)) shapeCasts_S65536x1024_S16x4096x1024 := by
  unfold Pipeline.afterTail₀
  show StableHlo.after hostOps1 _ (Proc.devRef .tc main_v12) = _
  after_results
  refine Eq.trans (b := shapeCast S16x4096x1024 (Pipeline.withArrays (cfgs 0).spec c (V0 m c) (fun w => (dats m 0 c).arrAt w (cfgs 0).N) (Proc.devRef .tc main_v11) : S65536x1024.Idx → EReal) shapeCasts_S65536x1024_S16x4096x1024) rfl ?_
  refine congrArg (fun z : S65536x1024.Idx → EReal => shapeCast S16x4096x1024 z shapeCasts_S65536x1024_S16x4096x1024) ?_
  exact (Pipeline.withArrays_arr spec0 launch0.win.arr_inj c _ _ 5).trans (final m c)

theorem tail_scale (c : Dev nD) : Pipeline.afterTail₀ cfgs (dats m) 0 (V0 m) [hostOps1] c main_v13
    = shapeCast S1024 (V m c main_v3 : S1x1024.Idx → EReal) shapeCasts_S1x1024_S1024 := by
  unfold Pipeline.afterTail₀
  show StableHlo.after hostOps1 _ (Proc.devRef .tc main_v13) = _
  after_results
  refine Eq.trans (b := shapeCast S1024 (Pipeline.withArrays (cfgs 0).spec c (V0 m c) (fun w => (dats m 0 c).arrAt w (cfgs 0).N) (Proc.devRef .tc main_v3) : S1x1024.Idx → EReal) shapeCasts_S1x1024_S1024) rfl ?_
  refine congrArg (fun z : S1x1024.Idx → EReal => shapeCast S1024 z shapeCasts_S1x1024_S1024) ?_
  exact (Pipeline.withArrays_arr spec0 launch0.win.arr_inj c _ _ 2).trans (((dats m 0 c).arrAt_in 2 rfl _).trans (A_eq m c 2))

/-! ## The run, read -/

/-- Every weakly fair execution of the idealized kernel program terminates with the first result at the reshaped
    `rowsOut` of the arrays the region finds, the second at the reshaped scale row, and the arguments unchanged. -/
theorem run : θ_run defs (onTc (τ := τ) (main (F := Ideal))) ⟨m, fun _ => 0, ρ⟩ fun r => ∀ c : Dev nD,
      r.2.mem ((c : Thread nD τ).loc main_v12)
          = shapeCast S16x4096x1024 (rowsOut (V m c main_v0) (V m c main_v9) (V m c main_v3) (V m c main_v7) (V m c main_v10)) shapeCasts_S65536x1024_S16x4096x1024
      ∧ r.2.mem ((c : Thread nD τ).loc main_v13) = shapeCast S1024 (V m c main_v3 : S1x1024.Idx → EReal) shapeCasts_S1x1024_S1024
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v12 (Pipeline.mem_restRefs_of main_v12 (by decide) (by decide))).trans (tail_out m c),
      ((h c).2 main_v13 (Pipeline.mem_restRefs_of main_v13 (by decide) (by decide))).trans (tail_scale m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.QuantLinear

end
-- ==== Proof.Spec.lean ====
/-
  The quantized linear layer as one function of its five arguments, over the extended reals.

  With q(a, s) = roundeven(a / s), the layer's first result at batch `a`, position `b`, output channel `o` is
    (Σ_k q(x[a,b,k], s_x) · w[o,k] + q(bias[o], s_x)) · (s_w[o,0] · s_x),
  and its second result at channel `o` is the fused scale s_w[o,0] · s_x.
-/
import Idealize.ShloMosaic.PureOps.Ideal
import Idealize.ShloMosaic.Lib.ValueIdx

noncomputable section

namespace Cert.QuantLinearSpec

open Idealize.ShloMosaic Idealize.ShloMosaic.ValueIdx

/-- Quantization of `a` at scale `s`: the exact quotient rounded to nearest, ties to even. -/
def quant (a s : EReal) : EReal := Ideal.liftRound Ideal.roundHalfEven (Ideal.div a s)

/-- The dequantized output. -/
def out (x : (⟨3, ![16, 4096, 1024]⟩ : Shape).Idx → EReal) (sx : (⟨0, ![]⟩ : Shape).Idx → EReal)
    (w : (⟨2, ![1024, 1024]⟩ : Shape).Idx → EReal) (sw : (⟨2, ![1024, 1]⟩ : Shape).Idx → EReal)
    (b : (⟨1, ![1024]⟩ : Shape).Idx → EReal) : (⟨3, ![16, 4096, 1024]⟩ : Shape).Idx → EReal := fun i =>
  ((∑ k : Fin 1024, quant (x (ix3 (i 0) (i 1) k)) (sx ix0) * w (ix2 (i 2) k)) + quant (b (ix1 (i 2))) (sx ix0))
    * (sw (ix2 (i 2) (0 : Fin 1)) * sx ix0)

/-- The fused per-channel scale. -/
def scale (sx : (⟨0, ![]⟩ : Shape).Idx → EReal) (sw : (⟨2, ![1024, 1]⟩ : Shape).Idx → EReal) :
    (⟨1, ![1024]⟩ : Shape).Idx → EReal := fun j => sw (ix2 (j 0) (0 : Fin 1)) * sx ix0

/-- The output at explicit coordinates. -/
theorem out_at (x : (⟨3, ![16, 4096, 1024]⟩ : Shape).Idx → EReal) (sx : (⟨0, ![]⟩ : Shape).Idx → EReal)
    (w : (⟨2, ![1024, 1024]⟩ : Shape).Idx → EReal) (sw : (⟨2, ![1024, 1]⟩ : Shape).Idx → EReal)
    (b : (⟨1, ![1024]⟩ : Shape).Idx → EReal) (a : Fin 16) (p : Fin 4096) (o : Fin 1024) :
    out x sx w sw b (ix3 a p o)
      = ((∑ k : Fin 1024, quant (x (ix3 a p k)) (sx ix0) * w (ix2 o k)) + quant (b (ix1 o)) (sx ix0))
          * (sw (ix2 o (0 : Fin 1)) * sx ix0) := rfl

/-- The scale at an explicit coordinate. -/
theorem scale_at (sx : (⟨0, ![]⟩ : Shape).Idx → EReal) (sw : (⟨2, ![1024, 1]⟩ : Shape).Idx → EReal) (o : Fin 1024) :
    scale sx sw (ix1 o) = sw (ix2 o (0 : Fin 1)) * sx ix0 := rfl

end Cert.QuantLinearSpec

end
-- ==== Proof.KernelValue.lean ====
/-
  The kernel's two results are the specification.

  Row `r = 4096·a + p` of the flattened activations is position `(a, p)`; the transposed weights at `(k, o)` are the
  weights at `(o, k)`; the bias and scale rows at column `o` are roundeven(b[o] / s_x) and s_w[o,0] · s_x; the 1×1 array is
  s_x. Reshaping the region's output back to [16, 4096, 1024] therefore gives the specification's formula at `(a, p, o)`.
-/
import proofs.«132636_j19765439496401_1_alg».proof.Proof.KernelRun
import proofs.«132636_j19765439496401_1_alg».proof.Proof.Spec

set_option maxRecDepth 16384

noncomputable section

namespace Cert.KernelIdeal.QuantLinear

open Cert.KernelIdeal Cert.KernelIdeal.Gen Idealize.ShloMosaic Idealize.ShloMosaic.TcCoe Idealize.SL.Sem
open Idealize.ShloMosaic.ValueIdx
open Cert.QuantLinearSpec

/-- `rowsOut` at explicit coordinates. -/
theorem rowsOut_at (X : S65536x1024.Idx → EReal) (WT : S1024x1024.Idx → EReal) (SA BQ : S1x1024.Idx → EReal) (SX : S1x1.Idx → EReal)
    (r : Fin 65536) (o : Fin 1024) :
    rowsOut X WT SA BQ SX (ix2 r o)
      = ((∑ k : Fin 1024, FloatOps.roundeven (F := Ideal) (φ := .f32) (FloatOps.divf (X (ix2 r k)) (SX (ix2 (0 : Fin 1) (0 : Fin 1)))) * WT (ix2 k o))
          + BQ (ix2 (0 : Fin 1) o)) * SA (ix2 (0 : Fin 1) o) := rfl

/-- The region's output, reshaped, over the host lines before the region: the specification's output. -/
theorem rows_to_spec (x0 : FVec Ideal S16x4096x1024 .f32) (x1 : FVec Ideal S_ .f32) (x2 : FVec Ideal S1024x1024 .f32)
    (x3 : FVec Ideal S1024x1 .f32) (x4 : FVec Ideal S1024 .f32) :
    shapeCast S16x4096x1024
      (rowsOut (shapeCast S65536x1024 x0 shapeCasts_S16x4096x1024_S65536x1024)
        (transpose S1024x1024 [1, 0] (truncf (F := Ideal) .bf16 x2 bitsLt_bf16_f32) transposes_S1024x1024_S1024x1024_1_0)
        (shapeCast S1x1024 (mulf (F := Ideal) x3 (broadcastInDim S1024x1 ![] bcast_S_S1024x1 x1)) shapeCasts_S1024x1_S1x1024)
        (shapeCast S1x1024 (Host.roundeven (F := Ideal) (Host.divf (F := Ideal) x4 (broadcastInDim S1024 ![] bcast_S_S1024 x1))) shapeCasts_S1024_S1x1024)
        (shapeCast S1x1 x1 shapeCasts_S_S1x1))
      shapeCasts_S65536x1024_S16x4096x1024
    = out x0 x1 x2 x3 x4 := by
  funext i
  obtain ⟨a, p, o, rfl⟩ : ∃ (a : Fin 16) (p : Fin 4096) (o : Fin 1024), i = ix3 a p o := ⟨i 0, i 1, i 2, eq_ix3 i⟩
  have hr : a.val * 4096 + p.val < 65536 := by have := a.isLt; have := p.isLt; omega
  rw [shapeCast_apply _ shapeCasts_S65536x1024_S16x4096x1024 (ix3 a p o) (ix2 (⟨a.val * 4096 + p.val, hr⟩ : Fin 65536) o)
    (by rw [Shape.rowMajor_val_two, Shape.rowMajor_val_three]; rfl)]
  rw [rowsOut_at, out_at]
  have hX : ∀ k : Fin 1024, shapeCast S65536x1024 x0 shapeCasts_S16x4096x1024_S65536x1024 (ix2 (⟨a.val * 4096 + p.val, hr⟩ : Fin 65536) k) = x0 (ix3 a p k) := fun k =>
    shapeCast_apply x0 shapeCasts_S16x4096x1024_S65536x1024 _ _ (by rw [Shape.rowMajor_val_two, Shape.rowMajor_val_three]; rfl)
  have hS : shapeCast S1x1 x1 shapeCasts_S_S1x1 (ix2 (0 : Fin 1) (0 : Fin 1)) = x1 ix0 := congrArg x1 (eq_ix0 _)
  have hW : ∀ k : Fin 1024, transpose S1024x1024 [1, 0] (truncf (F := Ideal) .bf16 x2 bitsLt_bf16_f32) transposes_S1024x1024_S1024x1024_1_0 (ix2 k o) = x2 (ix2 o k) := fun k =>
    transpose_ix2_apply (truncf (F := Ideal) .bf16 x2 bitsLt_bf16_f32) transposes_S1024x1024_S1024x1024_1_0 k o
  have hB : shapeCast S1x1024 (Host.roundeven (F := Ideal) (Host.divf (F := Ideal) x4 (broadcastInDim S1024 ![] bcast_S_S1024 x1))) shapeCasts_S1024_S1x1024 (ix2 (0 : Fin 1) o)
      = quant (x4 (ix1 o)) (x1 ix0) := by
    rw [shapeCast_a_1a_apply]
    show Ideal.liftRound Ideal.roundHalfEven (Ideal.div (x4 (ix1 o)) (broadcastInDim S1024 ![] bcast_S_S1024 x1 (ix1 o))) = _
    rw [broadcastInDim_apply _ bcast_S_S1024 x1 (ix1 o) ix0 (fun d => d.elim0)]
    rfl
  have hA : shapeCast S1x1024 (mulf (F := Ideal) x3 (broadcastInDim S1024x1 ![] bcast_S_S1024x1 x1)) shapeCasts_S1024x1_S1x1024 (ix2 (0 : Fin 1) o)
      = x3 (ix2 o (0 : Fin 1)) * x1 ix0 := by
    rw [shapeCast_apply _ shapeCasts_S1024x1_S1x1024 (ix2 (0 : Fin 1) o) (ix2 o (0 : Fin 1))
      (by rw [Shape.rowMajor_val_two, Shape.rowMajor_val_two]; show o.val * 1 + 0 = 0 * 1024 + o.val; omega)]
    rw [mulf_apply, broadcastInDim_apply _ bcast_S_S1024x1 x1 (ix2 o (0 : Fin 1)) ix0 (fun d => d.elim0)]
  rw [hS, hB, hA]
  refine congrArg (fun s => (s + quant (x4 (ix1 o)) (x1 ix0)) * (x3 (ix2 o (0 : Fin 1)) * x1 ix0)) (Finset.sum_congr rfl fun k _ => ?_)
  rw [hX k, hW k]
  rfl

/-- The scale row, reshaped: the specification's scale. -/
theorem scale_to_spec (x1 : FVec Ideal S_ .f32) (x3 : FVec Ideal S1024x1 .f32) :
    shapeCast S1024 (shapeCast S1x1024 (mulf (F := Ideal) x3 (broadcastInDim S1024x1 ![] bcast_S_S1024x1 x1)) shapeCasts_S1024x1_S1x1024) shapeCasts_S1x1024_S1024
      = scale x1 x3 := by
  funext j
  obtain ⟨o, rfl⟩ : ∃ o : Fin 1024, j = ix1 o := ⟨j 0, eq_ix1 j⟩
  rw [scale_at, shapeCast_1a_a_apply,
    shapeCast_apply _ shapeCasts_S1024x1_S1x1024 (ix2 (0 : Fin 1) o) (ix2 o (0 : Fin 1))
      (by rw [Shape.rowMajor_val_two, Shape.rowMajor_val_two]; show o.val * 1 + 0 = 0 * 1024 + o.val; omega),
    mulf_apply, broadcastInDim_apply _ bcast_S_S1024x1 x1 (ix2 o (0 : Fin 1)) ix0 (fun d => d.elim0)]

variable (m : (ℓ : Loc nD τ sig) → Buf (Elt Ideal) ℓ) (ρ : Dev nD → PrngReg)

/-- THE KERNEL PROGRAM'S RUN at the specification: the first result is `out` and the second `scale` of the five
    arguments as launched; the arguments end unchanged. -/
theorem run_spec : θ_run defs (onTc (τ := τ) (main (F := Ideal))) ⟨m, fun _ => 0, ρ⟩ fun r => ∀ c : Dev nD,
      r.2.mem ((c : Thread nD τ).loc main_v12) = out (xhat m c) (sx m c) (wq m c) (sw m c) (bq m c)
      ∧ r.2.mem ((c : Thread nD τ).loc main_v13) = scale (sx m c) (sw m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨(h c).1.trans (by rw [entry_x, entry_wt, entry_sa, entry_bq, entry_sx]; exact rows_to_spec _ _ _ _ _),
      (h c).2.1.trans (by rw [entry_sa]; exact scale_to_spec _ _),
      (h c).2.2⟩)
    (run m ρ)

end Cert.KernelIdeal.QuantLinear

end
-- ==== Proof.RefValue.lean ====
/-
  The reference's two results are the specification.

  The reference divides the activations by the scalar s_x, rounds to even, contracts with the weights over the input
  channel, adds the requantized bias roundeven(b / s_x) and multiplies by the fused scale s_w · s_x, each broadcast
  along the leading axes. Read at an index, operation by operation, that is the specification's formula.
-/
import proofs.«132636_j19765439496401_1_alg».proof.Proof.Gen.ReferenceIdeal.Read
import proofs.«132636_j19765439496401_1_alg».proof.Proof.Spec

noncomputable section

namespace Cert.ReferenceIdeal.QuantLinear

open Cert.ReferenceIdeal Cert.ReferenceIdeal.Gen Cert.ReferenceIdeal.Read Idealize.ShloMosaic Idealize.ShloMosaic.ValueIdx
open Cert.QuantLinearSpec

/-- The first result: the dequantized output. -/
theorem out_eq (x0 : FVec Ideal S16x4096x1024 .f32) (x1 : FVec Ideal S_ .f32) (x2 : FVec Ideal S1024x1024 .f32)
    (x3 : FVec Ideal S1024x1 .f32) (x4 : FVec Ideal S1024 .f32) :
    val_main_v15 (F := Ideal) x0 x1 x2 x3 x4 = out x0 x1 x2 x3 x4 := by
  funext i
  obtain ⟨a, p, o, rfl⟩ : ∃ (a : Fin 16) (p : Fin 4096) (o : Fin 1024), i = ix3 a p o := ⟨i 0, i 1, i 2, eq_ix3 i⟩
  rw [out_at]
  have el : ∀ k : Fin 1024, lidx_main_v9 (ix3 a p o) k = ix3 a p k := fun k => funext fun d => Fin.ext (by
    match d with
    | ⟨0, _⟩ => rfl
    | ⟨1, _⟩ => rfl
    | ⟨2, _⟩ => rfl)
  have er : ∀ k : Fin 1024, ridx_main_v9 (ix3 a p o) k = ix2 o k := fun k => funext fun d => Fin.ext (by
    match d with
    | ⟨0, _⟩ => rfl
    | ⟨1, _⟩ => rfl)
  have eb : idx_main_v10 (idx_main_v11 (ix3 a p o)) = ix1 o := funext fun d => Fin.ext (by
    match d with
    | ⟨0, _⟩ => rfl)
  have es : idx_main_v5 (idx_main_v13 (idx_main_v14 (ix3 a p o))) = ix2 o (0 : Fin 1) := funext fun d => Fin.ext (by
    match d with
    | ⟨0, _⟩ => exact Nat.div_one _
    | ⟨1, _⟩ => rfl)
  rw [val_main_v15_apply, val_main_v12_apply, val_main_v9_apply, val_main_v11_apply, val_main_v10_apply, val_main_v8_apply,
    val_main_v7_apply, val_main_v6_apply, val_main_v14_apply, val_main_v13_apply, val_main_v5_apply, val_main_v4_apply,
    val_main_v3_apply, eb, es]
  simp only [val_main_v2_apply, val_main_v1_apply, val_main_v0_apply, el, er]
  rfl

/-- The second result: the fused scale. -/
theorem scale_eq (x1 : FVec Ideal S_ .f32) (x3 : FVec Ideal S1024x1 .f32) :
    val_main_v5 (F := Ideal) x1 x3 = scale x1 x3 := by
  funext j
  obtain ⟨o, rfl⟩ : ∃ o : Fin 1024, j = ix1 o := ⟨j 0, eq_ix1 j⟩
  rw [scale_at, val_main_v5_apply, val_main_v4_apply, val_main_v3_apply]
  have es : idx_main_v5 (ix1 o) = ix2 o (0 : Fin 1) := funext fun d => Fin.ext (by
    match d with
    | ⟨0, _⟩ => exact Nat.div_one _
    | ⟨1, _⟩ => rfl)
  rw [es]
  rfl

end Cert.ReferenceIdeal.QuantLinear

end
-- ==== Proof.lean ====
/-
  An int8-emulated linear layer: a fused kernel against its jnp reference, over the extended reals.

  Both programs compute, with q(a, s) = roundeven(a / s),
    out[a, p, o] = (Σ_k q(x[a,p,k], s_x) · w[o,k] + q(bias[o], s_x)) · (s_w[o,0] · s_x)     and     scale[o] = s_w[o,0] · s_x.
  The kernel flattens the activations to 65536 rows and computes 1024 rows per grid point against the transposed
  weights, with the bias and scale as row vectors; the reference contracts the [16, 4096, 1024] activations with the
  weights directly and broadcasts bias and scale along the leading axes. At the ideal values the change of format to
  bf16 is the identity, the matrix product into a zero accumulator and the host's contraction are the same sum in the
  same order of factors, and the kernel's and the host's division and rounding are one function each, so the two
  sides are the same expression index by index: no algebraic law is needed, and the precondition is not used.

  Payload.lean reads the body's stored value at an index; Blocks.lean shows the 64 row blocks written back tile the
  region's array with one whole-array function; KernelRun.lean reads the host lines around the region; KernelValue.lean
  and RefValue.lean identify each side with Spec.lean's formula.
-/
import proofs.«132636_j19765439496401_1_alg».proof.Defs
import proofs.«132636_j19765439496401_1_alg».proof.Proof.Gen.Kernel
import proofs.«132636_j19765439496401_1_alg».proof.Proof.Gen.Kernel.Skeleton
import proofs.«132636_j19765439496401_1_alg».proof.Proof.Gen.Kernel.Launch
import proofs.«132636_j19765439496401_1_alg».proof.Proof.Gen.Kernel.Points
import proofs.«132636_j19765439496401_1_alg».proof.Proof.Gen.Kernel.Frame
import proofs.«132636_j19765439496401_1_alg».proof.Proof.Gen.KernelIdeal
import proofs.«132636_j19765439496401_1_alg».proof.Proof.Gen.KernelIdeal.Skeleton
import proofs.«132636_j19765439496401_1_alg».proof.Proof.Gen.KernelIdeal.Launch
import proofs.«132636_j19765439496401_1_alg».proof.Proof.Gen.KernelIdeal.Points
import proofs.«132636_j19765439496401_1_alg».proof.Proof.Gen.KernelIdeal.Frame
import proofs.«132636_j19765439496401_1_alg».proof.Proof.Gen.ReferenceIdeal
import proofs.«132636_j19765439496401_1_alg».proof.Proof.Gen.Pre_finite_inputs
import proofs.«132636_j19765439496401_1_alg».proof.Proof.Gen.ReferenceIdeal.Run
import proofs.«132636_j19765439496401_1_alg».proof.Proof.Gen.ReferenceIdeal.Read
import proofs.«132636_j19765439496401_1_alg».proof.Proof.KernelValue
import proofs.«132636_j19765439496401_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program terminates without a fault and leaves its arguments as launched. -/
theorem frame_kernel : Cert.frame_Kernel := fun m ρ _ => Cert.Kernel.Gen.frame m ρ

/-- So does the kernel program at the ideal values. -/
theorem frame_kernelIdeal : Cert.frame_KernelIdeal := fun m ρ _ => Cert.KernelIdeal.Gen.frame m ρ

/-- The reference is host operations only: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealized kernel is the kernel's own text read at the ideal values. -/
theorem preserves : Cert.preserves_Kernel_KernelIdeal := trivial

/-- From memories that agree on the five arguments both programs end with the specification's output and scale. -/
theorem algebraic : Cert.algebraic_KernelIdeal_ReferenceIdeal := by
  intro m ρ m' ρ' _ hagree
  refine ⟨fun c => Cert.QuantLinearSpec.out (Cert.KernelIdeal.QuantLinear.xhat m c) (Cert.KernelIdeal.QuantLinear.sx m c)
      (Cert.KernelIdeal.QuantLinear.wq m c) (Cert.KernelIdeal.QuantLinear.sw m c) (Cert.KernelIdeal.QuantLinear.bq m c),
    fun c => Cert.QuantLinearSpec.scale (Cert.KernelIdeal.QuantLinear.sx m c) (Cert.KernelIdeal.QuantLinear.sw m c),
    Cert.KernelIdeal.QuantLinear.run_spec m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, (hagree c).1, (hagree c).2.1, (hagree c).2.2.1, (hagree c).2.2.2.1, (hagree c).2.2.2.2]
    exact Cert.ReferenceIdeal.QuantLinear.out_eq _ _ _ _ _
  · rw [Cert.ReferenceIdeal.Read.val_main_v5_eq, (hagree c).2.1, (hagree c).2.2.2.1]
    exact Cert.ReferenceIdeal.QuantLinear.scale_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
